-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S10000x512 .f32) (main_arg1 : FVec F S512x512 .f32) (main_arg2 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S5000x256 : Shape := ⟨2, ![5000, 256]⟩
abbrev S512x256 : Shape := ⟨2, ![512, 256]⟩
abbrev S5000x512 : Shape := ⟨2, ![5000, 512]⟩

abbrev nBuf : Space → Nat
  | .hbm => 5
  | .vmem => 7
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S10000x512, .f32⟩
  | .local _ .vmem, ⟨0, _⟩ => ⟨S5000x256, .f32⟩
  | .local _ .vmem, ⟨1, _⟩ => ⟨S5000x256, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S5000x512, .f32⟩
  | .local _ .vmem, ⟨6, _⟩ => ⟨S5000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def k0_off1 (i : grid0.Coords) : Fin 2 → Nat :=
  let c0_7 : Index := 0#32
  let arg1 : BitVec 32 := BitVec.ofNat 32 (i 1).val
  let c256_i32 : BitVec 32 := 256#32
  let v11 : BitVec 32 := Scalar.muli arg1 c256_i32
  let v12 : Index := Scalar.indexCast v11
  ![0, v12.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512_S1x512 : S512.ShapeCasts S1x512
  inb_S5000x256_S5000x256_0_0 : ∀ a, (![0, 0] : Fin 2 → Nat) a + S5000x256.size a ≤ S5000x256.size a
  h_S5000x256 : 0 < S5000x256.numel
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  shapeCasts_S5000x256_S5000x256 : S5000x256.ShapeCasts S5000x256
  dot_S5000x256_S512x256_S5000x512_1_1_0_0_n_n_wf : DotDims.WF S5000x256 S512x256 S5000x512 [1] [1] [0] [0] [] []
  hrank0 : 0 < grid0.rank
  k0_off1_inb : ∀ i : grid0.Coords, ∀ a, (k0_off1 i) a + S5000x256.size a ≤ S5000x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S10000x512.size a
  hwx0_0 : ∀ i : grid0.Coords, EltTy.bits .f32 = 32 ∨ (Rect.block (s := S10000x512) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x512.size a
  hwx0_1 : ∀ i : grid0.Coords, EltTy.bits .f32 = 32 ∨ (Rect.block (s := S512x512) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S10000x512.size a
  hwx0_3 : ∀ i : grid0.Coords, EltTy.bits .f32 = 32 ∨ (Rect.block (s := S10000x512) S5000x512.size (cc0_transform_3 i) (hinb0_3 i)).WholeWords (EltTy.packing .f32)

variable [Facts₀]

def dot_S5000x256_S512x256_S5000x512_1_1_0_0_n_n : DotDims S5000x256 S512x256 S5000x512 where
  lhsContracting := [1]
  rhsContracting := [1]
  lhsNonContracting := [0]
  rhsNonContracting := [0]
  lhsBatch := []
  rhsBatch := []
  wf := dot_S5000x256_S512x256_S5000x512_1_1_0_0_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S10000x512, .f32⟩
  | .hbm, ⟨5, _⟩ => ⟨S1x512, .f32⟩
  | .hbm, ⟨6, _⟩ => ⟨S10000x512, .f32⟩
  | .hbm, ⟨7, _⟩ => ⟨S10000x512, .f32⟩
  | .hbm, ⟨8, _⟩ => ⟨S_, .f32⟩
  | .hbm, ⟨9, _⟩ => ⟨S10000x512, .f32⟩
  | .hbm, ⟨10, _⟩ => ⟨S10000x512, .f32⟩
  | .hbm, ⟨11, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.BitsRuns.lean ====
/-
  The kernel body of the fused residual-linear block, run symbolically at one grid point.

  The grid is (row tile, feature chunk) = 2 x 2.  At a point the body multiplies the point's 5000 x 256 chunk of
  x by the matching 512 x 256 chunk of W (contracting the chunk's 256 features), scales by the literal 0.1, and
    * at the FIRST chunk of a row tile (chunk index 0) stores  0.1 * partial + 0.1 * b  over the whole 5000 x 512
      output block (after a load of that block whose value nothing uses),
    * at a LATER chunk adds  0.1 * partial  to the block it finds,
  and then, in both cases, adds the x chunk itself into the block's columns [256 k, 256 k + 256).

  Stated here, for any float instance: which of the two branches a point takes (decided over the grid), and for
  each branch the body's triple on whole staging buffers, the list of stores it leaves in the output block being
  found by the symbolic run itself.
-/
import proofs.«167304_g12850542150406_cont_week2b_740_10_alg».proof.Proof.Gen.Kernel.Frame
import proofs.«167304_g12850542150406_cont_week2b_740_10_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Chunked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which branch a grid point takes -/

/-- The body's first conditional (chunk index = 0), as the kernel computes it from the grid coordinates. -/
abbrev isFirstChunk (i : grid0.Coords) : Prop :=
  (Scalar.cmpi .ne (Scalar.extui (Scalar.cmpi .eq (BitVec.ofNat 32 (i 1).val) 0#32)) 0#32) = 1#1

/-- It is taken exactly at the even points of the row-major 2 x 2 grid. -/
theorem isFirstChunk_iff : ∀ t : Fin cfg0.N, isFirstChunk (grid0.coords t) ↔ t.val % 2 = 0 :=
  (by decide +kernel : ∀ t : Fin grid0.N, isFirstChunk (grid0.coords t) ↔ t.val % 2 = 0)

/-- The body's second conditional (chunk index ≠ 0). -/
abbrev isLaterChunk (i : grid0.Coords) : Prop :=
  (Scalar.cmpi .ne (Scalar.extui (Scalar.cmpi .ne (BitVec.ofNat 32 (i 1).val) 0#32)) 0#32) = 1#1

/-- It is taken exactly at the odd points. -/
theorem isLaterChunk_iff : ∀ t : Fin cfg0.N, isLaterChunk (grid0.coords t) ↔ t.val % 2 = 1 :=
  (by decide +kernel : ∀ t : Fin grid0.N, isLaterChunk (grid0.coords t) ↔ t.val % 2 = 1)

/-! ## The staging buffers the pipeline hands the body at a point -/

abbrev xBuf (t : Fin cfg0.N) : Memref sig .tc .vmem S5000x256 .f32 := win0_0.stage (cfg0.slots t 0)
abbrev xBuf_whole (t : Fin cfg0.N) : (xBuf t).IsWhole := hstage0_0 ((cfg0.slots t 0).cast nbuf0_0)
abbrev wBuf (t : Fin cfg0.N) : Memref sig .tc .vmem S512x256 .f32 := win0_1.stage (cfg0.slots t 1)
abbrev wBuf_whole (t : Fin cfg0.N) : (wBuf t).IsWhole := hstage0_1 ((cfg0.slots t 1).cast nbuf0_1)
abbrev bBuf (t : Fin cfg0.N) : Memref sig .tc .vmem S1x512 .f32 := win0_2.stage (cfg0.slots t 2)
abbrev bBuf_whole (t : Fin cfg0.N) : (bBuf t).IsWhole := hstage0_2 ((cfg0.slots t 2).cast nbuf0_2)
abbrev oBuf (t : Fin cfg0.N) : Memref sig .tc .vmem S5000x512 .f32 := win0_3.stage (cfg0.slots t 3)
abbrev oBuf_whole (t : Fin cfg0.N) : (oBuf t).IsWhole := hstage0_3 ((cfg0.slots t 3).cast nbuf0_3)

/-- One staging buffer of the output window, through which the block's contents are stated (any would do). -/
abbrev oView : View sig .tc .vmem S5000x512 .f32 := (Memref.whole cc0_stg3_0 : Memref sig .tc .vmem S5000x512 .f32).view

/-! ## The body at the first chunk of a row tile -/

set_option maxHeartbeats 1000000 in
/-- At the first chunk the output block may hold anything when the body starts (its one early load of the block is
    of a value nothing reads): the body runs, hands the three input buffers back as found, and leaves in the output
    block the stores the run lists (the whole-block store, then the store into the chunk's columns). -/
noncomputable def runFirst (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) :
    { L3 : List (View.Piece (Elt F) S5000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_block i arg2 harg2 arg3 harg3 arg4 harg4 arg5 harg5) K } := by
  refine ⟨?_, fun E K => ?run⟩
  case run =>
    simp only [cc0__fused_block_eq_skeleton]; unfold cc0__fused_block_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## The body at a later chunk -/

set_option maxHeartbeats 1000000 in
/-- At a later chunk the body reads the output block it finds (contents xo), adds the scaled partial product
    to all of it and the x chunk to the chunk's columns: the run lists the two stores. -/
noncomputable def runLater (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32) :
    { L3 : List (View.Piece (Elt F) S5000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_block i arg2 harg2 arg3 harg3 arg4 harg4 arg5 harg5) K } := by
  refine ⟨?_, fun E K => ?run⟩
  case run =>
    simp only [cc0__fused_block_eq_skeleton]; unfold cc0__fused_block_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Chunked

end
-- ==== Proof.BitsFrame.lean ====
/-
  The frame of the fused residual-linear kernel, with the output block's contents named point by point.

  The output window's block index is the row tile alone, so the block stays in its staging buffer over the two
  feature chunks of a row tile and is written back after the second.  What the buffer holds after the body at a
  point is therefore defined by recursion on the point: at a first chunk the stores of that branch (over anything),
  at a later chunk the stores of the other branch over what the point before left.  With that as the proof data
  the body obligation is the two symbolic runs, the launch is the library's, and the frame claim follows.
-/
import proofs.«167304_g12850542150406_cont_week2b_740_10_alg».proof.Proof.BitsRuns

set_option maxRecDepth 16384

noncomputable section

namespace Cert.Kernel.Chunked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves in the output block -/

/-- The first-chunk branch's stores include a store of the whole block, so they cover it. -/
theorem cover_first (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) (y : S5000x512.Idx) :
    ∃ pc ∈ (runFirst c i arg2 harg2 arg3 harg3 arg4 harg4 arg5 harg5 hc0 hc1 x0 x1 x2).1, y ∈ pc.1.set :=
  View.cover_of_wholeMem (runFirst c i arg2 harg2 arg3 harg3 arg4 harg4 arg5 harg5 hc0 hc1 x0 x1 x2).1 (by sl_whole_mem) y

/-- The output block after the body at a first chunk: that branch's stores read back. -/
def afterFirst (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) : Vec F S5000x512 .f32 :=
  oView.read (Elt F) (oView.writes (Elt F) oView.junk (runFirst c i arg2 harg2 arg3 harg3 arg4 harg4 arg5 harg5 hc0 hc1 x0 x1 x2).1)

/-- The later-chunk branch's stores include a store of the whole block too. -/
theorem cover_later (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32) (y : S5000x512.Idx) :
    ∃ pc ∈ (runLater c i arg2 harg2 arg3 harg3 arg4 harg4 arg5 harg5 hc0 hc1 x0 x1 x2 xo).1, y ∈ pc.1.set :=
  View.cover_of_wholeMem (runLater c i arg2 harg2 arg3 harg3 arg4 harg4 arg5 harg5 hc0 hc1 x0 x1 x2 xo).1 (by sl_whole_mem) y

/-- The output block after the body at a later chunk, over the contents xo it found. -/
def afterLater (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32) : Vec F S5000x512 .f32 :=
  oView.read (Elt F) (oView.writes (Elt F) oView.junk (runLater c i arg2 harg2 arg3 harg3 arg4 harg4 arg5 harg5 hc0 hc1 x0 x1 x2 xo).1)

/-! ## The output block after each point -/

theorem not_later_of_even (t : Fin cfg0.N) (h : t.val % 2 = 0) : ¬isLaterChunk (grid0.coords t) :=
  fun hl => by have := (isLaterChunk_iff t).mp hl; omega

theorem not_first_of_odd (t : Fin cfg0.N) (h : ¬t.val % 2 = 0) : ¬isFirstChunk (grid0.coords t) :=
  fun hf => h ((isFirstChunk_iff t).mp hf)

theorem later_of_odd (t : Fin cfg0.N) (h : ¬t.val % 2 = 0) : isLaterChunk (grid0.coords t) :=
  (isLaterChunk_iff t).mpr (by omega)

/-- What the output window's staging buffer holds after the body at position n of the grid: an even position is a
    first chunk (the block is set afresh), an odd one accumulates onto what position n - 1 left. -/
def blockAfter (c : Dev nD) : (n : ℕ) → n < cfg0.N → Vec F S5000x512 .f32
  | 0, hn => afterFirst c (grid0.coords ⟨0, hn⟩) (xBuf ⟨0, hn⟩) (xBuf_whole ⟨0, hn⟩) (wBuf ⟨0, hn⟩) (wBuf_whole ⟨0, hn⟩) (bBuf ⟨0, hn⟩) (bBuf_whole ⟨0, hn⟩) (oBuf ⟨0, hn⟩) (oBuf_whole ⟨0, hn⟩)
      ((isFirstChunk_iff ⟨0, hn⟩).mpr (Nat.zero_mod _)) (not_later_of_even ⟨0, hn⟩ (Nat.zero_mod _)) (iblk m c 0 ⟨0, hn⟩) (iblk m c 1 ⟨0, hn⟩) (iblk m c 2 ⟨0, hn⟩)
  | n + 1, hn =>
    if h0 : (n + 1) % 2 = 0 then
      afterFirst c (grid0.coords ⟨n + 1, hn⟩) (xBuf ⟨n + 1, hn⟩) (xBuf_whole ⟨n + 1, hn⟩) (wBuf ⟨n + 1, hn⟩) (wBuf_whole ⟨n + 1, hn⟩) (bBuf ⟨n + 1, hn⟩) (bBuf_whole ⟨n + 1, hn⟩) (oBuf ⟨n + 1, hn⟩) (oBuf_whole ⟨n + 1, hn⟩)
        ((isFirstChunk_iff ⟨n + 1, hn⟩).mpr h0) (not_later_of_even ⟨n + 1, hn⟩ h0) (iblk m c 0 ⟨n + 1, hn⟩) (iblk m c 1 ⟨n + 1, hn⟩) (iblk m c 2 ⟨n + 1, hn⟩)
    else
      afterLater c (grid0.coords ⟨n + 1, hn⟩) (xBuf ⟨n + 1, hn⟩) (xBuf_whole ⟨n + 1, hn⟩) (wBuf ⟨n + 1, hn⟩) (wBuf_whole ⟨n + 1, hn⟩) (bBuf ⟨n + 1, hn⟩) (bBuf_whole ⟨n + 1, hn⟩) (oBuf ⟨n + 1, hn⟩) (oBuf_whole ⟨n + 1, hn⟩)
        (not_first_of_odd ⟨n + 1, hn⟩ h0) (later_of_odd ⟨n + 1, hn⟩ h0) (iblk m c 0 ⟨n + 1, hn⟩) (iblk m c 1 ⟨n + 1, hn⟩) (iblk m c 2 ⟨n + 1, hn⟩) (blockAfter c n (Nat.lt_of_succ_lt hn))

/-- At an even point: the first-chunk contents. -/
theorem blockAfter_even (c : Dev nD) (t : Fin cfg0.N) (h0 : t.val % 2 = 0) :
    blockAfter m c t.val t.isLt = afterFirst c (grid0.coords t) (xBuf t) (xBuf_whole t) (wBuf t) (wBuf_whole t) (bBuf t) (bBuf_whole t) (oBuf t) (oBuf_whole t)
      ((isFirstChunk_iff t).mpr h0) (not_later_of_even t h0) (iblk m c 0 t) (iblk m c 1 t) (iblk m c 2 t) := by
  obtain ⟨n, hn⟩ := t
  cases n with
  | zero => exact rfl
  | succ n => exact (dif_pos h0).trans rfl

/-- At an odd point: the later-chunk contents over what the point before left. -/
theorem blockAfter_odd (c : Dev nD) (t : Fin cfg0.N) (h0 : ¬t.val % 2 = 0) :
    blockAfter m c t.val t.isLt = afterLater c (grid0.coords t) (xBuf t) (xBuf_whole t) (wBuf t) (wBuf_whole t) (bBuf t) (bBuf_whole t) (oBuf t) (oBuf_whole t)
      (not_first_of_odd t h0) (later_of_odd t h0) (iblk m c 0 t) (iblk m c 1 t) (iblk m c 2 t)
      (blockAfter m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    blockAfter; the library's plain invariant; nothing owed; full shares. -/
def pipeData (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (blockAfter m c t.val t.isLt)
  Φ _ := Pipeline.ΦA spec0 c
  q _ := fullShare
  owed _ := 0

theorem pipeData_A (c : Dev nD) (w : Fin cfg0.W) : (pipeData m 0 c).A w = V m c (Pipeline.arrRef spec0 w) := by
  dsimp only [pipeData]

theorem after_x (c : Dev nD) (t : Fin cfg0.N) : (pipeData m 0 c).after 0 t = iblk m c 0 t := by dsimp only [pipeData]
theorem after_w (c : Dev nD) (t : Fin cfg0.N) : (pipeData m 0 c).after 1 t = iblk m c 1 t := by dsimp only [pipeData]
theorem after_b (c : Dev nD) (t : Fin cfg0.N) : (pipeData m 0 c).after 2 t = iblk m c 2 t := by dsimp only [pipeData]
theorem after_o (c : Dev nD) (t : Fin cfg0.N) : (pipeData m 0 c).after 3 t = (blockAfter m c t.val t.isLt) := by dsimp only [pipeData]

/-- Each input's current staging buffer holds its block at every point, fetched there or not. -/
theorem before_x (c : Dev nD) (t : Fin cfg0.N) (d) : (pipeData m 0 c).before 0 t d = iblk m c 0 t :=
  before0_0_of m (pipeData m 0 c) (pipeData_A m c 0) (after_x m c) t d
theorem before_w (c : Dev nD) (t : Fin cfg0.N) (d) : (pipeData m 0 c).before 1 t d = iblk m c 1 t :=
  before0_1_of m (pipeData m 0 c) (pipeData_A m c 1) (after_w m c) t d
theorem before_b (c : Dev nD) (t : Fin cfg0.N) (d) : (pipeData m 0 c).before 2 t d = iblk m c 2 t :=
  before0_2_of m (pipeData m 0 c) (pipeData_A m c 2) (after_b m c) t d

/-- At an odd point the output's staging buffer still holds what the point before left: the block index has not
    moved, and the buffer was not written back in between. -/
theorem before_o_odd (c : Dev nD) (t : Fin cfg0.N) (h0 : ¬t.val % 2 = 0) (d) :
    (pipeData m 0 c).before 3 t d = (blockAfter m c (t.val - 1) (Nat.lt_of_le_of_lt (Nat.sub_le _ _) t.isLt)) := by
  have hN : t.val < 4 := lt_of_lt_of_eq t.isLt (show cfg0.N = 4 from N_0)
  rw [Dat.before_out_kept _ 3 rfl t (by omega) (Bool.eq_false_iff.mpr fun h => by have := (flush0_3 _).mp h; dsimp only at this; omega)
    (fun _ => rfl) (fun _ _ => rfl)]
  dsimp only [pipeData]

/-! ## The body obligation -/

def bodyPre (c : Dev nD) (t : Fin cfg0.N) : sProp 𝕄 :=
  iprop((pipeData m 0 c).Φ t.castSucc ∗ (pipeData m 0 c).owesAt () t.castSucc
    ∗ (∃ d, owns (c : Thread nD τ) (xBuf t) fullShare ((pipeData m 0 c).before 0 t d))
    ∗ (∃ d, owns (c : Thread nD τ) (wBuf t) fullShare ((pipeData m 0 c).before 1 t d))
    ∗ (∃ d, owns (c : Thread nD τ) (bBuf t) fullShare ((pipeData m 0 c).before 2 t d))
    ∗ (∃ d, owns (c : Thread nD τ) (oBuf t) fullShare ((pipeData m 0 c).before 3 t d)))

def bodyPost (c : Dev nD) (t : Fin cfg0.N) : sProp 𝕄 :=
  iprop((pipeData m 0 c).Φ t.succ ∗ (pipeData m 0 c).owesAt () t.succ
    ∗ owns (c : Thread nD τ) (xBuf t) fullShare ((pipeData m 0 c).after 0 t)
    ∗ owns (c : Thread nD τ) (wBuf t) fullShare ((pipeData m 0 c).after 1 t)
    ∗ owns (c : Thread nD τ) (bBuf t) fullShare ((pipeData m 0 c).after 2 t)
    ∗ owns (c : Thread nD τ) (oBuf t) fullShare ((pipeData m 0 c).after 3 t))

set_option maxHeartbeats 800000 in
/-- The body at any point: the inputs' buffers hold their blocks; the parity of the point says which branch runs;
    at an odd point the output's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (pipeData m 0 c).Φ t.succ = (pipeData m 0 c).Φ t.castSucc from rfl,
    show (pipeData m 0 c).owesAt () t.succ = (pipeData m 0 c).owesAt () t.castSucc from rfl,
    after_x, after_w, after_b, after_o]
  have hN : t.val < 4 := lt_of_lt_of_eq t.isLt (show cfg0.N = 4 from N_0)
  by_cases h0 : t.val % 2 = 0
  · rw [blockAfter_even m c t h0]
    unfold afterFirst
    iintro ⟨HΦ, Ho, ⟨%d0, H0⟩, ⟨%d1, H1⟩, ⟨%d2, H2⟩, ⟨%d3, H3⟩⟩
    iapply ((runFirst c (grid0.coords t) _ _ _ _ _ _ _ _ ((isFirstChunk_iff t).mpr h0) (not_later_of_even t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_first c _ _ _ _ _ _ _ _ _ _ _ _ _ _)
  · rw [blockAfter_odd m c t h0]
    simp only [before_o_odd m c t h0]
    unfold afterLater
    iintro ⟨HΦ, Ho, ⟨%d0, H0⟩, ⟨%d1, H1⟩, ⟨%d2, H2⟩, ⟨%d3, H3⟩⟩
    iapply ((runLater c (grid0.coords t) _ _ _ _ _ _ _ _ (not_first_of_odd t h0) (later_of_odd t h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_later c _ _ _ _ _ _ _ _ _ _ _ _ _ _ _)

/-- The library's body obligation, at every point. -/
theorem body_obligation (c : Dev nD) : BodyObligation (pipeData (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (pipeData m) 0 (V m)) :=
  Pipeline.θ_run_frame cfgs (pipeData m) (0 : Fin 1) launch0 defs₀ Variants.none m ρ main
    (hbody := fun c => (body_obligation m c).loose) (hshare := fun c => (pipeData m 0 c).share_full fun _ => rfl)
    (howed := fun _ _ => rfl) (V := V m) (hmain := hmain m Variants.none) (hA := pipeData_A m) (hΦ := fun _ _ => rfl)

/-- The frame claim at any float instance: the program runs and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (pipeData m) (pipeData_A m) (run_main m ρ)

end Cert.Kernel.Chunked

end
-- ==== Proof.IdealRuns.lean ====
/-
  The kernel body of the fused residual-linear block, run symbolically at one grid point.

  The grid is (row tile, feature chunk) = 2 x 2.  At a point the body multiplies the point's 5000 x 256 chunk of
  x by the matching 512 x 256 chunk of W (contracting the chunk's 256 features), scales by the literal 0.1, and
    * at the FIRST chunk of a row tile (chunk index 0) stores  0.1 * partial + 0.1 * b  over the whole 5000 x 512
      output block (after a load of that block whose value nothing uses),
    * at a LATER chunk adds  0.1 * partial  to the block it finds,
  and then, in both cases, adds the x chunk itself into the block's columns [256 k, 256 k + 256).

  Stated here, for any float instance: which of the two branches a point takes (decided over the grid), and for
  each branch the body's triple on whole staging buffers, the list of stores it leaves in the output block being
  found by the symbolic run itself.
-/
import proofs.«167304_g12850542150406_cont_week2b_740_10_alg».proof.Proof.Gen.KernelIdeal.Frame
import proofs.«167304_g12850542150406_cont_week2b_740_10_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Chunked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which branch a grid point takes -/

/-- The body's first conditional (chunk index = 0), as the kernel computes it from the grid coordinates. -/
abbrev isFirstChunk (i : grid0.Coords) : Prop :=
  (Scalar.cmpi .ne (Scalar.extui (Scalar.cmpi .eq (BitVec.ofNat 32 (i 1).val) 0#32)) 0#32) = 1#1

/-- It is taken exactly at the even points of the row-major 2 x 2 grid. -/
theorem isFirstChunk_iff : ∀ t : Fin cfg0.N, isFirstChunk (grid0.coords t) ↔ t.val % 2 = 0 :=
  (by decide +kernel : ∀ t : Fin grid0.N, isFirstChunk (grid0.coords t) ↔ t.val % 2 = 0)

/-- The body's second conditional (chunk index ≠ 0). -/
abbrev isLaterChunk (i : grid0.Coords) : Prop :=
  (Scalar.cmpi .ne (Scalar.extui (Scalar.cmpi .ne (BitVec.ofNat 32 (i 1).val) 0#32)) 0#32) = 1#1

/-- It is taken exactly at the odd points. -/
theorem isLaterChunk_iff : ∀ t : Fin cfg0.N, isLaterChunk (grid0.coords t) ↔ t.val % 2 = 1 :=
  (by decide +kernel : ∀ t : Fin grid0.N, isLaterChunk (grid0.coords t) ↔ t.val % 2 = 1)

/-! ## The staging buffers the pipeline hands the body at a point -/

abbrev xBuf (t : Fin cfg0.N) : Memref sig .tc .vmem S5000x256 .f32 := win0_0.stage (cfg0.slots t 0)
abbrev xBuf_whole (t : Fin cfg0.N) : (xBuf t).IsWhole := hstage0_0 ((cfg0.slots t 0).cast nbuf0_0)
abbrev wBuf (t : Fin cfg0.N) : Memref sig .tc .vmem S512x256 .f32 := win0_1.stage (cfg0.slots t 1)
abbrev wBuf_whole (t : Fin cfg0.N) : (wBuf t).IsWhole := hstage0_1 ((cfg0.slots t 1).cast nbuf0_1)
abbrev bBuf (t : Fin cfg0.N) : Memref sig .tc .vmem S1x512 .f32 := win0_2.stage (cfg0.slots t 2)
abbrev bBuf_whole (t : Fin cfg0.N) : (bBuf t).IsWhole := hstage0_2 ((cfg0.slots t 2).cast nbuf0_2)
abbrev oBuf (t : Fin cfg0.N) : Memref sig .tc .vmem S5000x512 .f32 := win0_3.stage (cfg0.slots t 3)
abbrev oBuf_whole (t : Fin cfg0.N) : (oBuf t).IsWhole := hstage0_3 ((cfg0.slots t 3).cast nbuf0_3)

/-- One staging buffer of the output window, through which the block's contents are stated (any would do). -/
abbrev oView : View sig .tc .vmem S5000x512 .f32 := (Memref.whole cc0_stg3_0 : Memref sig .tc .vmem S5000x512 .f32).view

/-! ## The body at the first chunk of a row tile -/

set_option maxHeartbeats 1000000 in
/-- At the first chunk the output block may hold anything when the body starts (its one early load of the block is
    of a value nothing reads): the body runs, hands the three input buffers back as found, and leaves in the output
    block the stores the run lists (the whole-block store, then the store into the chunk's columns). -/
noncomputable def runFirst (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) :
    { L3 : List (View.Piece (Elt F) S5000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_block i arg2 harg2 arg3 harg3 arg4 harg4 arg5 harg5) K } := by
  refine ⟨?_, fun E K => ?run⟩
  case run =>
    simp only [cc0__fused_block_eq_skeleton]; unfold cc0__fused_block_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## The body at a later chunk -/

set_option maxHeartbeats 1000000 in
/-- At a later chunk the body reads the output block it finds (contents xo), adds the scaled partial product
    to all of it and the x chunk to the chunk's columns: the run lists the two stores. -/
noncomputable def runLater (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32) :
    { L3 : List (View.Piece (Elt F) S5000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_block i arg2 harg2 arg3 harg3 arg4 harg4 arg5 harg5) K } := by
  refine ⟨?_, fun E K => ?run⟩
  case run =>
    simp only [cc0__fused_block_eq_skeleton]; unfold cc0__fused_block_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Chunked

end
-- ==== Proof.IdealFrame.lean ====
/-
  The frame of the fused residual-linear kernel, with the output block's contents named point by point.

  The output window's block index is the row tile alone, so the block stays in its staging buffer over the two
  feature chunks of a row tile and is written back after the second.  What the buffer holds after the body at a
  point is therefore defined by recursion on the point: at a first chunk the stores of that branch (over anything),
  at a later chunk the stores of the other branch over what the point before left.  With that as the proof data
  the body obligation is the two symbolic runs, the launch is the library's, and the frame claim follows.
-/
import proofs.«167304_g12850542150406_cont_week2b_740_10_alg».proof.Proof.IdealRuns

set_option maxRecDepth 16384

noncomputable section

namespace Cert.KernelIdeal.Chunked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves in the output block -/

/-- The first-chunk branch's stores include a store of the whole block, so they cover it. -/
theorem cover_first (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) (y : S5000x512.Idx) :
    ∃ pc ∈ (runFirst c i arg2 harg2 arg3 harg3 arg4 harg4 arg5 harg5 hc0 hc1 x0 x1 x2).1, y ∈ pc.1.set :=
  View.cover_of_wholeMem (runFirst c i arg2 harg2 arg3 harg3 arg4 harg4 arg5 harg5 hc0 hc1 x0 x1 x2).1 (by sl_whole_mem) y

/-- The output block after the body at a first chunk: that branch's stores read back. -/
def afterFirst (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) : Vec F S5000x512 .f32 :=
  oView.read (Elt F) (oView.writes (Elt F) oView.junk (runFirst c i arg2 harg2 arg3 harg3 arg4 harg4 arg5 harg5 hc0 hc1 x0 x1 x2).1)

/-- The later-chunk branch's stores include a store of the whole block too. -/
theorem cover_later (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32) (y : S5000x512.Idx) :
    ∃ pc ∈ (runLater c i arg2 harg2 arg3 harg3 arg4 harg4 arg5 harg5 hc0 hc1 x0 x1 x2 xo).1, y ∈ pc.1.set :=
  View.cover_of_wholeMem (runLater c i arg2 harg2 arg3 harg3 arg4 harg4 arg5 harg5 hc0 hc1 x0 x1 x2 xo).1 (by sl_whole_mem) y

/-- The output block after the body at a later chunk, over the contents xo it found. -/
def afterLater (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32) : Vec F S5000x512 .f32 :=
  oView.read (Elt F) (oView.writes (Elt F) oView.junk (runLater c i arg2 harg2 arg3 harg3 arg4 harg4 arg5 harg5 hc0 hc1 x0 x1 x2 xo).1)

/-! ## The output block after each point -/

theorem not_later_of_even (t : Fin cfg0.N) (h : t.val % 2 = 0) : ¬isLaterChunk (grid0.coords t) :=
  fun hl => by have := (isLaterChunk_iff t).mp hl; omega

theorem not_first_of_odd (t : Fin cfg0.N) (h : ¬t.val % 2 = 0) : ¬isFirstChunk (grid0.coords t) :=
  fun hf => h ((isFirstChunk_iff t).mp hf)

theorem later_of_odd (t : Fin cfg0.N) (h : ¬t.val % 2 = 0) : isLaterChunk (grid0.coords t) :=
  (isLaterChunk_iff t).mpr (by omega)

/-- What the output window's staging buffer holds after the body at position n of the grid: an even position is a
    first chunk (the block is set afresh), an odd one accumulates onto what position n - 1 left. -/
def blockAfter (c : Dev nD) : (n : ℕ) → n < cfg0.N → Vec F S5000x512 .f32
  | 0, hn => afterFirst c (grid0.coords ⟨0, hn⟩) (xBuf ⟨0, hn⟩) (xBuf_whole ⟨0, hn⟩) (wBuf ⟨0, hn⟩) (wBuf_whole ⟨0, hn⟩) (bBuf ⟨0, hn⟩) (bBuf_whole ⟨0, hn⟩) (oBuf ⟨0, hn⟩) (oBuf_whole ⟨0, hn⟩)
      ((isFirstChunk_iff ⟨0, hn⟩).mpr (Nat.zero_mod _)) (not_later_of_even ⟨0, hn⟩ (Nat.zero_mod _)) (iblk m c 0 ⟨0, hn⟩) (iblk m c 1 ⟨0, hn⟩) (iblk m c 2 ⟨0, hn⟩)
  | n + 1, hn =>
    if h0 : (n + 1) % 2 = 0 then
      afterFirst c (grid0.coords ⟨n + 1, hn⟩) (xBuf ⟨n + 1, hn⟩) (xBuf_whole ⟨n + 1, hn⟩) (wBuf ⟨n + 1, hn⟩) (wBuf_whole ⟨n + 1, hn⟩) (bBuf ⟨n + 1, hn⟩) (bBuf_whole ⟨n + 1, hn⟩) (oBuf ⟨n + 1, hn⟩) (oBuf_whole ⟨n + 1, hn⟩)
        ((isFirstChunk_iff ⟨n + 1, hn⟩).mpr h0) (not_later_of_even ⟨n + 1, hn⟩ h0) (iblk m c 0 ⟨n + 1, hn⟩) (iblk m c 1 ⟨n + 1, hn⟩) (iblk m c 2 ⟨n + 1, hn⟩)
    else
      afterLater c (grid0.coords ⟨n + 1, hn⟩) (xBuf ⟨n + 1, hn⟩) (xBuf_whole ⟨n + 1, hn⟩) (wBuf ⟨n + 1, hn⟩) (wBuf_whole ⟨n + 1, hn⟩) (bBuf ⟨n + 1, hn⟩) (bBuf_whole ⟨n + 1, hn⟩) (oBuf ⟨n + 1, hn⟩) (oBuf_whole ⟨n + 1, hn⟩)
        (not_first_of_odd ⟨n + 1, hn⟩ h0) (later_of_odd ⟨n + 1, hn⟩ h0) (iblk m c 0 ⟨n + 1, hn⟩) (iblk m c 1 ⟨n + 1, hn⟩) (iblk m c 2 ⟨n + 1, hn⟩) (blockAfter c n (Nat.lt_of_succ_lt hn))

/-- At an even point: the first-chunk contents. -/
theorem blockAfter_even (c : Dev nD) (t : Fin cfg0.N) (h0 : t.val % 2 = 0) :
    blockAfter m c t.val t.isLt = afterFirst c (grid0.coords t) (xBuf t) (xBuf_whole t) (wBuf t) (wBuf_whole t) (bBuf t) (bBuf_whole t) (oBuf t) (oBuf_whole t)
      ((isFirstChunk_iff t).mpr h0) (not_later_of_even t h0) (iblk m c 0 t) (iblk m c 1 t) (iblk m c 2 t) := by
  obtain ⟨n, hn⟩ := t
  cases n with
  | zero => exact rfl
  | succ n => exact (dif_pos h0).trans rfl

/-- At an odd point: the later-chunk contents over what the point before left. -/
theorem blockAfter_odd (c : Dev nD) (t : Fin cfg0.N) (h0 : ¬t.val % 2 = 0) :
    blockAfter m c t.val t.isLt = afterLater c (grid0.coords t) (xBuf t) (xBuf_whole t) (wBuf t) (wBuf_whole t) (bBuf t) (bBuf_whole t) (oBuf t) (oBuf_whole t)
      (not_first_of_odd t h0) (later_of_odd t h0) (iblk m c 0 t) (iblk m c 1 t) (iblk m c 2 t)
      (blockAfter m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    blockAfter; the library's plain invariant; nothing owed; full shares. -/
def pipeData (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (blockAfter m c t.val t.isLt)
  Φ _ := Pipeline.ΦA spec0 c
  q _ := fullShare
  owed _ := 0

theorem pipeData_A (c : Dev nD) (w : Fin cfg0.W) : (pipeData m 0 c).A w = V m c (Pipeline.arrRef spec0 w) := by
  dsimp only [pipeData]

theorem after_x (c : Dev nD) (t : Fin cfg0.N) : (pipeData m 0 c).after 0 t = iblk m c 0 t := by dsimp only [pipeData]
theorem after_w (c : Dev nD) (t : Fin cfg0.N) : (pipeData m 0 c).after 1 t = iblk m c 1 t := by dsimp only [pipeData]
theorem after_b (c : Dev nD) (t : Fin cfg0.N) : (pipeData m 0 c).after 2 t = iblk m c 2 t := by dsimp only [pipeData]
theorem after_o (c : Dev nD) (t : Fin cfg0.N) : (pipeData m 0 c).after 3 t = (blockAfter m c t.val t.isLt) := by dsimp only [pipeData]

/-- Each input's current staging buffer holds its block at every point, fetched there or not. -/
theorem before_x (c : Dev nD) (t : Fin cfg0.N) (d) : (pipeData m 0 c).before 0 t d = iblk m c 0 t :=
  before0_0_of m (pipeData m 0 c) (pipeData_A m c 0) (after_x m c) t d
theorem before_w (c : Dev nD) (t : Fin cfg0.N) (d) : (pipeData m 0 c).before 1 t d = iblk m c 1 t :=
  before0_1_of m (pipeData m 0 c) (pipeData_A m c 1) (after_w m c) t d
theorem before_b (c : Dev nD) (t : Fin cfg0.N) (d) : (pipeData m 0 c).before 2 t d = iblk m c 2 t :=
  before0_2_of m (pipeData m 0 c) (pipeData_A m c 2) (after_b m c) t d

/-- At an odd point the output's staging buffer still holds what the point before left: the block index has not
    moved, and the buffer was not written back in between. -/
theorem before_o_odd (c : Dev nD) (t : Fin cfg0.N) (h0 : ¬t.val % 2 = 0) (d) :
    (pipeData m 0 c).before 3 t d = (blockAfter m c (t.val - 1) (Nat.lt_of_le_of_lt (Nat.sub_le _ _) t.isLt)) := by
  have hN : t.val < 4 := lt_of_lt_of_eq t.isLt (show cfg0.N = 4 from N_0)
  rw [Dat.before_out_kept _ 3 rfl t (by omega) (Bool.eq_false_iff.mpr fun h => by have := (flush0_3 _).mp h; dsimp only at this; omega)
    (fun _ => rfl) (fun _ _ => rfl)]
  dsimp only [pipeData]

/-! ## The body obligation -/

def bodyPre (c : Dev nD) (t : Fin cfg0.N) : sProp 𝕄 :=
  iprop((pipeData m 0 c).Φ t.castSucc ∗ (pipeData m 0 c).owesAt () t.castSucc
    ∗ (∃ d, owns (c : Thread nD τ) (xBuf t) fullShare ((pipeData m 0 c).before 0 t d))
    ∗ (∃ d, owns (c : Thread nD τ) (wBuf t) fullShare ((pipeData m 0 c).before 1 t d))
    ∗ (∃ d, owns (c : Thread nD τ) (bBuf t) fullShare ((pipeData m 0 c).before 2 t d))
    ∗ (∃ d, owns (c : Thread nD τ) (oBuf t) fullShare ((pipeData m 0 c).before 3 t d)))

def bodyPost (c : Dev nD) (t : Fin cfg0.N) : sProp 𝕄 :=
  iprop((pipeData m 0 c).Φ t.succ ∗ (pipeData m 0 c).owesAt () t.succ
    ∗ owns (c : Thread nD τ) (xBuf t) fullShare ((pipeData m 0 c).after 0 t)
    ∗ owns (c : Thread nD τ) (wBuf t) fullShare ((pipeData m 0 c).after 1 t)
    ∗ owns (c : Thread nD τ) (bBuf t) fullShare ((pipeData m 0 c).after 2 t)
    ∗ owns (c : Thread nD τ) (oBuf t) fullShare ((pipeData m 0 c).after 3 t))

set_option maxHeartbeats 800000 in
/-- The body at any point: the inputs' buffers hold their blocks; the parity of the point says which branch runs;
    at an odd point the output's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (pipeData m 0 c).Φ t.succ = (pipeData m 0 c).Φ t.castSucc from rfl,
    show (pipeData m 0 c).owesAt () t.succ = (pipeData m 0 c).owesAt () t.castSucc from rfl,
    after_x, after_w, after_b, after_o]
  have hN : t.val < 4 := lt_of_lt_of_eq t.isLt (show cfg0.N = 4 from N_0)
  by_cases h0 : t.val % 2 = 0
  · rw [blockAfter_even m c t h0]
    unfold afterFirst
    iintro ⟨HΦ, Ho, ⟨%d0, H0⟩, ⟨%d1, H1⟩, ⟨%d2, H2⟩, ⟨%d3, H3⟩⟩
    iapply ((runFirst c (grid0.coords t) _ _ _ _ _ _ _ _ ((isFirstChunk_iff t).mpr h0) (not_later_of_even t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_first c _ _ _ _ _ _ _ _ _ _ _ _ _ _)
  · rw [blockAfter_odd m c t h0]
    simp only [before_o_odd m c t h0]
    unfold afterLater
    iintro ⟨HΦ, Ho, ⟨%d0, H0⟩, ⟨%d1, H1⟩, ⟨%d2, H2⟩, ⟨%d3, H3⟩⟩
    iapply ((runLater c (grid0.coords t) _ _ _ _ _ _ _ _ (not_first_of_odd t h0) (later_of_odd t h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_later c _ _ _ _ _ _ _ _ _ _ _ _ _ _ _)

/-- The library's body obligation, at every point. -/
theorem body_obligation (c : Dev nD) : BodyObligation (pipeData (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (pipeData m) 0 (V m)) :=
  Pipeline.θ_run_frame cfgs (pipeData m) (0 : Fin 1) launch0 defs₀ Variants.none m ρ main
    (hbody := fun c => (body_obligation m c).loose) (hshare := fun c => (pipeData m 0 c).share_full fun _ => rfl)
    (howed := fun _ _ => rfl) (V := V m) (hmain := hmain m Variants.none) (hA := pipeData_A m) (hΦ := fun _ _ => rfl)

/-- The frame claim at any float instance: the program runs and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (pipeData m) (pipeData_A m) (run_main m ρ)

end Cert.KernelIdeal.Chunked

end
-- ==== Proof.IdealBlock.lean ====
/-
  The output block after the body, entry by entry.

  Both branches end with a store into the chunk's 256 columns that reads back what the whole-block store just left
  there.  So, for 0.1 * partial + 0.1 * b written u (first chunk) and found + 0.1 * partial written u' (later chunk):
    first chunk (columns [0, 256) are the chunk's):   entry (p, q) is  u (p, q) + x (p, q)  for q < 256,  u (p, q)  otherwise;
    later chunk (columns [256, 512) are the chunk's): entry (p, q) is  u' (p, q) + x (p, q - 256)  for 256 ≤ q,  u' (p, q)  otherwise.
  Here x is the point's 5000 x 256 chunk of the input.  Stated for any float instance.
-/
import proofs.«167304_g12850542150406_cont_week2b_740_10_alg».proof.Proof.IdealFrame
import Idealize.ShloMosaic.Lib.WritesUnit
import Idealize.ShloMosaic.Lib.Pipeline.Value
import Idealize.ShloMosaic.Lib.ValueIdx

set_option maxRecDepth 16384

noncomputable section

namespace Cert.KernelIdeal.Chunked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem zero_offsets : (![0, 0] : Fin 2 → Nat) = fun _ => 0 := funext fun a => by fin_cases a <;> rfl

/-- The first conditional holds only where the chunk coordinate is 0, -/
theorem chunk_of_first (i : grid0.Coords) (h : isFirstChunk i) : (i 1).val = 0 := by
  have h2 : (i 1).val < 2 := (i 1).isLt
  revert h
  unfold isFirstChunk
  generalize (i 1).val = v at h2 ⊢
  interval_cases v <;> decide

/-- and the second only where it is 1 (the grid has two chunks). -/
theorem chunk_of_later (i : grid0.Coords) (h : isLaterChunk i) : (i 1).val = 1 := by
  have h2 : (i 1).val < 2 := (i 1).isLt
  revert h
  unfold isLaterChunk
  generalize (i 1).val = v at h2 ⊢
  interval_cases v <;> decide

/-- The column offset of the body's last store: 0 at a first chunk, -/
theorem off_first (i : grid0.Coords) (h : isFirstChunk i) : k0_off1 i = ![0, 0] := by
  rw [k0_off1_eq i, chunk_of_first i h]
/-- 256 at a later one. -/
theorem off_later (i : grid0.Coords) (h : isLaterChunk i) : k0_off1 i = ![0, 256] := by
  rw [k0_off1_eq i, chunk_of_later i h]

/-- At a first chunk, a column of the chunk: the whole-block value plus the input entry. -/
theorem afterFirst_lo (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) (p : Fin 5000) (q : Fin 512) (h : q.val < 256) :
    afterFirst c i arg2 harg2 arg3 harg3 arg4 harg4 arg5 harg5 hc0 hc1 x0 x1 x2 (ix2 p q)
      = FloatOps.addf (k0_pay2 x0 x1 x2 (ix2 p q)) (x0 (ix2 p ⟨q.val, h⟩)) := by
  unfold afterFirst runFirst
  dsimp only
  sl_unfold_run_names
  refine (View.read_writes_cons_unit_of_mem oView _ _ _ _ (ix2 p q) (ix2 p ⟨q.val, h⟩) (off_first i hc0) ?hx).trans ?_
  case hx =>
    intro a
    match a with
    | ⟨0, _⟩ => exact (Nat.zero_add _).symm
    | ⟨1, _⟩ => exact (Nat.zero_add _).symm
  simp only [View.readAt_eq_ld, harg2.read_unread, harg3.read_unread, harg4.read_unread,
    View.ld_unit_zero (S := S5000x256) zero_offsets, View.ld_unit_zero (S := S512x256) zero_offsets, View.ld_unit_zero (S := S1x512) zero_offsets,
    View.read_writes_junk_eq_canon, View.canon_unit_zero (S := S5000x512) zero_offsets]
  unfold k0_pay4
  simp only [shapeCast_self]
  have e : (Rect.unit (s := S5000x512) (k0_off1 i) S5000x256.size (k0_off1_inb i)).idx (ix2 p ⟨q.val, h⟩) = ix2 p q := by
    funext a
    apply Fin.ext
    show k0_off1 i a + 1 * (ix2 p (⟨q.val, h⟩ : Fin 256) a).val = (ix2 p q a).val
    rw [off_first i hc0]
    match a with
    | ⟨0, _⟩ => simp
    | ⟨1, _⟩ => simp
  show FloatOps.addf (k0_pay2 x0 x1 x2 ((Rect.unit (s := S5000x512) (k0_off1 i) S5000x256.size (k0_off1_inb i)).idx (ix2 p ⟨q.val, h⟩))) (x0 (ix2 p ⟨q.val, h⟩)) = _
  rw [e]

/-- At a first chunk, a column outside the chunk: the whole-block value alone. -/
theorem afterFirst_hi (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : isFirstChunk i) (hc1 : ¬isLaterChunk i)
    (x0 : Vec F S5000x256 .f32) (x1 : Vec F S512x256 .f32) (x2 : Vec F S1x512 .f32) (p : Fin 5000) (q : Fin 512) (h : 256 ≤ q.val) :
    afterFirst c i arg2 harg2 arg3 harg3 arg4 harg4 arg5 harg5 hc0 hc1 x0 x1 x2 (ix2 p q) = k0_pay2 x0 x1 x2 (ix2 p q) := by
  unfold afterFirst runFirst
  dsimp only
  sl_unfold_run_names
  refine (View.read_writes_cons_unit_of_not_mem oView _ _ _ _ (ix2 p q) (off_first i hc0) (1 : Fin 2) (Or.inr ?_)).trans ?_
  · show 0 + 256 ≤ q.val
    omega
  refine (View.read_writes_cons_unit_of_mem oView _ _ _ _ (ix2 p q) (ix2 p q) rfl ?hx).trans ?_
  case hx =>
    intro a
    match a with
    | ⟨0, _⟩ => exact (Nat.zero_add _).symm
    | ⟨1, _⟩ => exact (Nat.zero_add _).symm
  simp only [View.readAt_eq_ld, harg2.read_unread, harg3.read_unread, harg4.read_unread, harg5.read_unread,
    View.ld_unit_zero (S := S5000x256) zero_offsets, View.ld_unit_zero (S := S512x256) zero_offsets, View.ld_unit_zero (S := S1x512) zero_offsets,
    View.ld_unit_zero (S := S5000x512) zero_offsets,
    View.read_writes_junk_eq_canon, View.canon_unit_zero (S := S5000x512) zero_offsets]

/-- At a later chunk, a column outside the chunk: what was found plus the scaled partial product. -/
theorem afterLater_lo (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32)
    (p : Fin 5000) (q : Fin 512) (h : q.val < 256) :
    afterLater c i arg2 harg2 arg3 harg3 arg4 harg4 arg5 harg5 hc0 hc1 x0 x1 x2 xo (ix2 p q) = k0_pay3 x0 x1 xo (ix2 p q) := by
  unfold afterLater runLater
  dsimp only
  sl_unfold_run_names
  refine (View.read_writes_cons_unit_of_not_mem oView _ _ _ _ (ix2 p q) (off_later i hc1) (1 : Fin 2) (Or.inl ?_)).trans ?_
  · show q.val < 256
    exact h
  refine (View.read_writes_cons_unit_of_mem oView _ _ _ _ (ix2 p q) (ix2 p q) rfl ?hx).trans ?_
  case hx =>
    intro a
    match a with
    | ⟨0, _⟩ => exact (Nat.zero_add _).symm
    | ⟨1, _⟩ => exact (Nat.zero_add _).symm
  simp only [View.readAt_eq_ld, harg2.read_unread, harg3.read_unread, harg4.read_unread, harg5.read_unread,
    View.ld_unit_zero (S := S5000x256) zero_offsets, View.ld_unit_zero (S := S512x256) zero_offsets, View.ld_unit_zero (S := S1x512) zero_offsets,
    View.ld_unit_zero (S := S5000x512) zero_offsets,
    View.read_writes_junk_eq_canon, View.canon_unit_zero (S := S5000x512) zero_offsets]

/-- At a later chunk, a column of the chunk: that, plus the input entry of the chunk's column q - 256. -/
theorem afterLater_hi (c : Dev nD) (i : grid0.Coords) (arg2 : Memref sig .tc .vmem S5000x256 .f32) (harg2 : arg2.IsWhole)
    (arg3 : Memref sig .tc .vmem S512x256 .f32) (harg3 : arg3.IsWhole) (arg4 : Memref sig .tc .vmem S1x512 .f32) (harg4 : arg4.IsWhole)
    (arg5 : Memref sig .tc .vmem S5000x512 .f32) (harg5 : arg5.IsWhole) (hc0 : ¬isFirstChunk i) (hc1 : isLaterChunk i)
    (x0 : Vec F S5000x256 .f32) (x1 : Vec F S512x256 .f32) (x2 : Vec F S1x512 .f32) (xo : Vec F S5000x512 .f32)
    (p : Fin 5000) (q : Fin 512) (h : 256 ≤ q.val) :
    afterLater c i arg2 harg2 arg3 harg3 arg4 harg4 arg5 harg5 hc0 hc1 x0 x1 x2 xo (ix2 p q)
      = FloatOps.addf (k0_pay3 x0 x1 xo (ix2 p q)) (x0 (ix2 p ⟨q.val - 256, by have := q.isLt; omega⟩)) := by
  unfold afterLater runLater
  dsimp only
  sl_unfold_run_names
  refine (View.read_writes_cons_unit_of_mem oView _ _ _ _ (ix2 p q) (ix2 p ⟨q.val - 256, by have := q.isLt; omega⟩) (off_later i hc1) ?hx).trans ?_
  case hx =>
    intro a
    match a with
    | ⟨0, _⟩ => exact (Nat.zero_add _).symm
    | ⟨1, _⟩ =>
      show q.val = 256 + (q.val - 256)
      omega
  simp only [View.readAt_eq_ld, harg2.read_unread, harg3.read_unread, harg4.read_unread, harg5.read_unread,
    View.ld_unit_zero (S := S5000x256) zero_offsets, View.ld_unit_zero (S := S512x256) zero_offsets, View.ld_unit_zero (S := S1x512) zero_offsets,
    View.ld_unit_zero (S := S5000x512) zero_offsets,
    View.read_writes_junk_eq_canon, View.canon_unit_zero (S := S5000x512) zero_offsets]
  unfold k0_pay4
  simp only [shapeCast_self]
  have e : (Rect.unit (s := S5000x512) (k0_off1 i) S5000x256.size (k0_off1_inb i)).idx (ix2 p ⟨q.val - 256, by have := q.isLt; omega⟩) = ix2 p q := by
    funext a
    apply Fin.ext
    show k0_off1 i a + 1 * (ix2 p (⟨q.val - 256, by have := q.isLt; omega⟩ : Fin 256) a).val = (ix2 p q a).val
    rw [off_later i hc1]
    match a with
    | ⟨0, _⟩ => simp
    | ⟨1, _⟩ =>
      show 256 + 1 * (q.val - 256) = q.val
      omega
  show FloatOps.addf (k0_pay3 x0 x1 xo ((Rect.unit (s := S5000x512) (k0_off1 i) S5000x256.size (k0_off1_inb i)).idx (ix2 p ⟨q.val - 256, by have := q.isLt; omega⟩))) (x0 (ix2 p ⟨q.val - 256, by have := q.isLt; omega⟩)) = _
  rw [e]

end Cert.KernelIdeal.Chunked

end
-- ==== Proof.IdealEntries.lean ====
/-
  The body's arithmetic at one entry, over the extended reals.

  With t the word of the literal 0.1, x the point's 5000 x 256 chunk of the input and w the matching 512 x 256 chunk
  of W (row q of w holds the weights of output column q):
      scaled partial product   (p, q)  :  t * sum over j < 256 of  x (p, j) * w (q, j)
      first-chunk block value  (p, q)  :  that  +  t * b (0, q)
      later-chunk block value  (p, q)  :  found (p, q)  +  that.
  The matrix unit contracts axis 1 of both operands into a zero accumulator, which at this instance is the plain sum.
-/
import proofs.«167304_g12850542150406_cont_week2b_740_10_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Chunked

open Idealize.ShloMosaic Idealize.ShloMosaic.TcCoe Idealize.ShloMosaic.ValueIdx
open Cert.KernelIdeal Cert.KernelIdeal.Gen

/-! ## The product's operand indices: output (p, q), contraction index k  ↦  x (p, k) and w (q, k) -/

theorem lhs_row (i : S5000x512.Idx) (k : dot_S5000x256_S512x256_S5000x512_1_1_0_0_n_n.contr.Idx) :
    (dot_S5000x256_S512x256_S5000x512_1_1_0_0_n_n.lhsIdx i k 0).val = (i 0).val := by
  unfold DotDims.lhsIdx
  rw [dif_neg (show ¬(0 : Fin S5000x256.rank) ∈ dot_S5000x256_S512x256_S5000x512_1_1_0_0_n_n.lhsBatch by decide), dif_pos (show (0 : Fin S5000x256.rank) ∈ dot_S5000x256_S512x256_S5000x512_1_1_0_0_n_n.lhsNonContracting by decide)]
  rfl
theorem lhs_col (i : S5000x512.Idx) (k : dot_S5000x256_S512x256_S5000x512_1_1_0_0_n_n.contr.Idx) :
    (dot_S5000x256_S512x256_S5000x512_1_1_0_0_n_n.lhsIdx i k 1).val = (k ⟨0, by decide⟩).val :=
  dot_S5000x256_S512x256_S5000x512_1_1_0_0_n_n.lhsIdx_val_of_single rfl i k
theorem rhs_row (i : S5000x512.Idx) (k : dot_S5000x256_S512x256_S5000x512_1_1_0_0_n_n.contr.Idx) :
    (dot_S5000x256_S512x256_S5000x512_1_1_0_0_n_n.rhsIdx i k 0).val = (i 1).val := by
  unfold DotDims.rhsIdx
  rw [dif_neg (show ¬(0 : Fin S512x256.rank) ∈ dot_S5000x256_S512x256_S5000x512_1_1_0_0_n_n.rhsBatch by decide), dif_pos (show (0 : Fin S512x256.rank) ∈ dot_S5000x256_S512x256_S5000x512_1_1_0_0_n_n.rhsNonContracting by decide)]
  rfl
theorem rhs_col (i : S5000x512.Idx) (k : dot_S5000x256_S512x256_S5000x512_1_1_0_0_n_n.contr.Idx) :
    (dot_S5000x256_S512x256_S5000x512_1_1_0_0_n_n.rhsIdx i k 1).val = (k ⟨0, by decide⟩).val :=
  dot_S5000x256_S512x256_S5000x512_1_1_0_0_n_n.rhsIdx_val_of_single rfl i k

/-- The matrix product into a zero accumulator, at an entry: the sum over the chunk's 256 features. -/
theorem product_apply (x : Vec Ideal S5000x256 .f32) (w : Vec Ideal S512x256 .f32) (p : Fin 5000) (q : Fin 512) :
    FloatOps.matmul (F := Ideal) (φ₁ := .f32) (φ₂ := .f32) dot_S5000x256_S512x256_S5000x512_1_1_0_0_n_n none x w (constant S5000x512 .f32 0x00000000#32) (ix2 p q)
      = ∑ j : Fin 256, x (ix2 p j) * w (ix2 q j) := by
  rw [Ideal.matmul_constant_zero_apply, ← Equiv.sum_comp (contrEquiv1 dot_S5000x256_S512x256_S5000x512_1_1_0_0_n_n 256 rfl rfl).symm]
  refine Finset.sum_congr rfl fun k _ => ?_
  have hk := contrEquiv1_symm_val dot_S5000x256_S512x256_S5000x512_1_1_0_0_n_n 256 rfl rfl k
  have el : dot_S5000x256_S512x256_S5000x512_1_1_0_0_n_n.lhsIdx (ix2 p q) ((contrEquiv1 dot_S5000x256_S512x256_S5000x512_1_1_0_0_n_n 256 rfl rfl).symm k) = ix2 p k := funext fun a => Fin.ext (by
    match a with
    | ⟨0, _⟩ => exact lhs_row _ _
    | ⟨1, _⟩ => exact (lhs_col _ _).trans hk)
  have er : dot_S5000x256_S512x256_S5000x512_1_1_0_0_n_n.rhsIdx (ix2 p q) ((contrEquiv1 dot_S5000x256_S512x256_S5000x512_1_1_0_0_n_n 256 rfl rfl).symm k) = ix2 q k := funext fun a => Fin.ext (by
    match a with
    | ⟨0, _⟩ => exact rhs_row _ _
    | ⟨1, _⟩ => exact (rhs_col _ _).trans hk)
  rw [el, er]

/-- The scaled partial product at an entry. -/
theorem scaled_apply (x : Vec Ideal S5000x256 .f32) (w : Vec Ideal S512x256 .f32) (p : Fin 5000) (q : Fin 512) :
    k0_pay1 (F := Ideal) x w (ix2 p q) = Ideal.ofBits .f32 0x3DCCCCCD#32 * ∑ j : Fin 256, x (ix2 p j) * w (ix2 q j) := by
  unfold k0_pay1
  exact congrArg (Ideal.ofBits .f32 0x3DCCCCCD#32 * ·) (product_apply x w p q)

/-- The first-chunk block value at an entry. -/
theorem first_apply (x : Vec Ideal S5000x256 .f32) (w : Vec Ideal S512x256 .f32) (b : Vec Ideal S1x512 .f32) (p : Fin 5000) (q : Fin 512) :
    k0_pay2 (F := Ideal) x w b (ix2 p q)
      = Ideal.ofBits .f32 0x3DCCCCCD#32 * (∑ j : Fin 256, x (ix2 p j) * w (ix2 q j)) + Ideal.ofBits .f32 0x3DCCCCCD#32 * b (ix2 (0 : Fin 1) q) := by
  unfold k0_pay2
  show k0_pay1 (F := Ideal) x w (ix2 p q) + broadcastTo S5000x512 (mulf (broadcast S1x512 (Scalar.ofBits .f32 0x3DCCCCCD#32)) (shapeCast S1x512 b _)) _ (ix2 p q) = _
  rw [scaled_apply, broadcastTo_1b_ab_apply, shapeCast_self]
  rfl

/-- The later-chunk block value at an entry. -/
theorem later_apply (x : Vec Ideal S5000x256 .f32) (w : Vec Ideal S512x256 .f32) (o : Vec Ideal S5000x512 .f32) (p : Fin 5000) (q : Fin 512) :
    k0_pay3 (F := Ideal) x w o (ix2 p q)
      = o (ix2 p q) + Ideal.ofBits .f32 0x3DCCCCCD#32 * (∑ j : Fin 256, x (ix2 p j) * w (ix2 q j)) := by
  unfold k0_pay3
  show shapeCast S5000x512 o _ (ix2 p q) + k0_pay1 (F := Ideal) x w (ix2 p q) = _
  rw [scaled_apply, shapeCast_self]

end Cert.KernelIdeal.Chunked

end
-- ==== Proof.Algebra.lean ====
/-
  The one law that joins the two programs, over the extended reals.

  Write t for the literal 0.1 (as the float word denotes it), a row of x as xs and a row of W as ws (512 entries
  each), bv for the bias entry and xv for the input's own entry.  The kernel forms
      t * (first 256 products) + t * bv,  then adds  t * (last 256 products)  and, somewhere along the way, xv;
  the reference forms  xv + t * (all 512 products + bv).  These agree when every entry is a real number:
  distributing t over a sum needs finite terms on the extended reals, and that is the only place where the
  inputs' finiteness is used.  The sum over 512 splits at 256.
-/
import Idealize.ShloMosaic.PureOps.Ideal
import Mathlib.Data.EReal.Operations
import Mathlib.Algebra.BigOperators.Fin
import Mathlib.Tactic.Ring
import Mathlib.Tactic.NormNum

noncomputable section

namespace Cert.ResidualLinear

open Idealize.ShloMosaic

/-- The f32 word of the literal 0.1 denotes a real number (13421773 / 2^27). -/
theorem tenth_real : ∃ r : ℝ, Ideal.ofBits .f32 0x3DCCCCCD#32 = (r : EReal) :=
  ⟨13421773 / 134217728, by simp [Ideal.ofBits, Ideal.ieee, -EReal.coe_mul]; norm_num⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first half and the second half of 512 consecutive indices. -/
abbrev lo (j : Fin 256) : Fin 512 := ⟨j.val, by omega⟩
abbrev hi (j : Fin 256) : Fin 512 := ⟨256 + j.val, by omega⟩

/-- A sum over 512 indices is the sum over the first 256 plus the sum over the last 256. -/
theorem sum_split (f : Fin 512 → ℝ) : ∑ k : Fin 512, f k = ∑ j : Fin 256, f (lo j) + ∑ j : Fin 256, f (hi j) := by
  have h := Fin.sum_univ_add (M := ℝ) (a := 256) (b := 256) f
  exact h

/-- Over the reals: both of the kernel's orders of adding the three scaled parts and the input entry are the
    reference's  xv + t * (sum + bv). -/
theorem real_law (t xv bv : ℝ) (f : Fin 512 → ℝ) :
    ((t * (∑ j : Fin 256, f (lo j)) + t * bv) + xv) + t * (∑ j : Fin 256, f (hi j)) = xv + t * ((∑ k : Fin 512, f k) + bv)
    ∧ ((t * (∑ j : Fin 256, f (lo j)) + t * bv) + t * (∑ j : Fin 256, f (hi j))) + xv = xv + t * ((∑ k : Fin 512, f k) + bv) := by
  rw [sum_split f]
  constructor <;> ring

/-- The same over the extended reals, for entries that are all real numbers. In a column of the first chunk the
    input entry is added before the second partial product, -/
theorem law_lo (t xv bv : EReal) (xs ws : Fin 512 → EReal) (ht : ∃ r : ℝ, t = r) (hxv : ∃ r : ℝ, xv = r) (hbv : ∃ r : ℝ, bv = r)
    (hxs : ∀ k, ∃ r : ℝ, xs k = r) (hws : ∀ k, ∃ r : ℝ, ws k = r) :
    ((t * (∑ j : Fin 256, xs (lo j) * ws (lo j)) + t * bv) + xv) + t * (∑ j : Fin 256, xs (hi j) * ws (hi j))
      = xv + t * ((∑ k : Fin 512, xs k * ws k) + bv) := by
  obtain ⟨t, rfl⟩ := ht; obtain ⟨xv, rfl⟩ := hxv; obtain ⟨bv, rfl⟩ := hbv
  choose xr hxr using hxs
  choose wr hwr using hws
  simp only [hxr, hwr, ← EReal.coe_mul, ← coe_sum, ← EReal.coe_add]
  exact congrArg _ (real_law t xv bv (fun k => xr k * wr k)).1

/-- in a column of the second chunk after it. -/
theorem law_hi (t xv bv : EReal) (xs ws : Fin 512 → EReal) (ht : ∃ r : ℝ, t = r) (hxv : ∃ r : ℝ, xv = r) (hbv : ∃ r : ℝ, bv = r)
    (hxs : ∀ k, ∃ r : ℝ, xs k = r) (hws : ∀ k, ∃ r : ℝ, ws k = r) :
    ((t * (∑ j : Fin 256, xs (lo j) * ws (lo j)) + t * bv) + t * (∑ j : Fin 256, xs (hi j) * ws (hi j))) + xv
      = xv + t * ((∑ k : Fin 512, xs k * ws k) + bv) := by
  obtain ⟨t, rfl⟩ := ht; obtain ⟨xv, rfl⟩ := hxv; obtain ⟨bv, rfl⟩ := hbv
  choose xr hxr using hxs
  choose wr hwr using hws
  simp only [hxr, hwr, ← EReal.coe_mul, ← coe_sum, ← EReal.coe_add]
  exact congrArg _ (real_law t xv bv (fun k => xr k * wr k)).2

end Cert.ResidualLinear

end
-- ==== Proof.Spec.lean ====
/-
  What both programs compute, entry by entry:   x + 0.1 * (x · Wᵀ + b)   over f32[10000, 512], W f32[512, 512], b f32[512].

  Entry (r, q) of the result is   x (r, q) + t * ( (sum over k < 512 of x (r, k) * W (q, k)) + b (q) ),
  t the extended real the f32 word of the literal 0.1 denotes.  This is the reference's own order of operations;
  the kernel reaches the same entries by another order (two half sums, scaled separately), equal for real entries.
-/
import Idealize.ShloMosaic.PureOps.Ideal
import Idealize.ShloMosaic.Lib.ValueIdx

noncomputable section

namespace Cert.ResidualLinear

open Idealize.ShloMosaic Idealize.ShloMosaic.ValueIdx

/-- The literal 0.1 as its f32 word denotes it. -/
abbrev tenth : EReal := Ideal.ofBits .f32 0x3DCCCCCD#32

/-- Entry (r, q) of  x + 0.1 * (x · Wᵀ + b). -/
def entry (x : (⟨2, ![10000, 512]⟩ : Shape).Idx → EReal) (w : (⟨2, ![512, 512]⟩ : Shape).Idx → EReal)
    (b : (⟨1, ![512]⟩ : Shape).Idx → EReal) (r : Fin 10000) (q : Fin 512) : EReal :=
  x (ix2 r q) + tenth * ((∑ k : Fin 512, x (ix2 r k) * w (ix2 q k)) + b (ix1 q))

/-- The whole result array. -/
def result (x : (⟨2, ![10000, 512]⟩ : Shape).Idx → EReal) (w : (⟨2, ![512, 512]⟩ : Shape).Idx → EReal)
    (b : (⟨1, ![512]⟩ : Shape).Idx → EReal) : (⟨2, ![10000, 512]⟩ : Shape).Idx → EReal :=
  fun i => entry x w b (i 0) (i 1)

end Cert.ResidualLinear

end
-- ==== Proof.IdealArray.lean ====
/-
  The kernel's result array, entry by entry, is the specified one.

  Row tile I of the output (rows 5000 I .. 5000 I + 4999) is written back once, after the second feature chunk.
  Entry (p, q) of that block, with r = 5000 I + p:
    after the first chunk:   t * (x(r, ·)·W(q, ·) over features 0..255) + t * b(q),  plus x(r, q) when q < 256;
    after the second:        that, plus t * (the same product over features 256..511),  plus x(r, q) when 256 ≤ q.
  For real entries this is  x(r, q) + t * (x(r, ·)·W(q, ·) + b(q)): the one law of the certificate.
-/
import proofs.«167304_g12850542150406_cont_week2b_740_10_alg».proof.Proof.IdealBlock
import proofs.«167304_g12850542150406_cont_week2b_740_10_alg».proof.Proof.IdealEntries
import proofs.«167304_g12850542150406_cont_week2b_740_10_alg».proof.Proof.Algebra
import proofs.«167304_g12850542150406_cont_week2b_740_10_alg».proof.Proof.Spec
import Idealize.ShloMosaic.Lib.Pipeline.Value
import Idealize.ShloMosaic.Lib.StableHlo.Run

set_option maxRecDepth 16384

noncomputable section

namespace Cert.KernelIdeal.Chunked

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.ResidualLinear

variable (m : (ℓ : Loc nD τ sig) → Buf (Elt Ideal) ℓ)

/-! ## The windows' blocks as parts of the arrays -/

/-- The printed index maps over the row-major 2 x 2 grid: point t is row tile t / 2, feature chunk t % 2. -/
theorem index_facts : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = 0 ∧ win0_2.index t (1 : Fin 2) = 0
    ∧ win0_3.index t (0 : Fin 2) = t.val / 2 ∧ win0_3.index t (1 : Fin 2) = 0 :=
  (by decide +kernel : ∀ t : Fin grid0.N, _)

/-- The three input blocks at a point, at their literal types. -/
abbrev xblk (c : Dev nD) (t : Fin cfg0.N) : Vec Ideal S5000x256 .f32 := iblk m c 0 t
abbrev wblk (c : Dev nD) (t : Fin cfg0.N) : Vec Ideal S512x256 .f32 := iblk m c 1 t
abbrev bblk (c : Dev nD) (t : Fin cfg0.N) : Vec Ideal S1x512 .f32 := iblk m c 2 t

/-- The input arrays as the region finds them. -/
abbrev xarr (c : Dev nD) : FVec Ideal S10000x512 .f32 := V m c main_arg0
abbrev warr (c : Dev nD) : FVec Ideal S512x512 .f32 := V m c main_arg1
abbrev barr (c : Dev nD) : FVec Ideal S512 .f32 := V m c main_arg2

/-- Entry (p, j) of the x block at point t is x at row 5000 (t / 2) + p, feature 256 (t % 2) + j. -/
theorem xblk_apply (c : Dev nD) (t : Fin cfg0.N) (p : Fin 5000) (j : Fin 256) (r : Fin 10000) (k : Fin 512)
    (hr : r.val = 5000 * (t.val / 2) + p.val) (hk : k.val = 256 * (t.val % 2) + j.val) :
    xblk m c t (ix2 p j) = xarr m c (ix2 r k) := by
  obtain ⟨e0, e1, -⟩ := index_facts t
  show V m c main_arg0 (((cfg0.win 0).blk t).view.emb (ix2 p j)) = V m c main_arg0 (ix2 r k)
  refine congrArg (V m c main_arg0) (funext fun a => Fin.ext ?_)
  match a with
  | ⟨0, _⟩ => show win0_0.index t (0 : Fin 2) * 5000 + 1 * p.val = r.val; omega
  | ⟨1, _⟩ => show win0_0.index t (1 : Fin 2) * 256 + 1 * j.val = k.val; omega

/-- Entry (q, j) of the W block at point t is W at row q, feature 256 (t % 2) + j. -/
theorem wblk_apply (c : Dev nD) (t : Fin cfg0.N) (q : Fin 512) (j : Fin 256) (k : Fin 512)
    (hk : k.val = 256 * (t.val % 2) + j.val) :
    wblk m c t (ix2 q j) = warr m c (ix2 q k) := by
  obtain ⟨-, -, e2, e3, -⟩ := index_facts t
  show V m c main_arg1 (((cfg0.win 1).blk t).view.emb (ix2 q j)) = V m c main_arg1 (ix2 q k)
  refine congrArg (V m c main_arg1) (funext fun a => Fin.ext ?_)
  match a with
  | ⟨0, _⟩ => show win0_1.index t (0 : Fin 2) * 512 + 1 * q.val = q.val; omega
  | ⟨1, _⟩ => show win0_1.index t (1 : Fin 2) * 256 + 1 * j.val = k.val; omega

/-- The bias window's array is the bias vector recast as one row, so entry (0, q) of its block is b (q). -/
theorem bblk_apply (c : Dev nD) (t : Fin cfg0.N) (q : Fin 512) :
    bblk m c t (ix2 (0 : Fin 1) q) = barr m c (ix1 q) := by
  obtain ⟨-, -, -, -, e4, e5, -⟩ := index_facts t
  have e : (V m c main_v0 : S1x512.Idx → EReal) = shapeCast S1x512 (m ((c : Thread nD τ).loc main_arg2)) Facts₀.shapeCasts_S512_S1x512 := by
    dsimp only [V, hostOps0]; after_results; rfl
  show V m c main_v0 (((cfg0.win 2).blk t).view.emb (ix2 (0 : Fin 1) q)) = V m c main_arg2 (ix1 q)
  rw [e, V_main_arg2]
  have hi : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 512 + 1 * q.val = q.val; omega)
  rw [hi]
  refine (shapeCast_addUnit_apply ![512] _ _ (ix2 (0 : Fin 1) q)).trans (congrArg _ (funext fun a => ?_))
  match a with
  | ⟨0, _⟩ => rfl

/-! ## The output block after each chunk of a row tile -/

/-- The products of the first 256 features of row r of x with those of row q of W, -/
abbrev dotLo (c : Dev nD) (r : Fin 10000) (q : Fin 512) : EReal := ∑ j : Fin 256, xarr m c (ix2 r (lo j)) * warr m c (ix2 q (lo j))
/-- and of the last 256. -/
abbrev dotHi (c : Dev nD) (r : Fin 10000) (q : Fin 512) : EReal := ∑ j : Fin 256, xarr m c (ix2 r (hi j)) * warr m c (ix2 q (hi j))

/-- At an even point the chunk's products are the first half's, -/
theorem chunk_sum_even (c : Dev nD) (t : Fin cfg0.N) (ht : t.val % 2 = 0) (p : Fin 5000) (q : Fin 512) (r : Fin 10000)
    (hr : r.val = 5000 * (t.val / 2) + p.val) :
    (∑ j : Fin 256, xblk m c t (ix2 p j) * wblk m c t (ix2 q j)) = dotLo m c r q :=
  Finset.sum_congr rfl fun j _ => by
    rw [xblk_apply m c t p j r (lo j) hr (by show j.val = 256 * (t.val % 2) + j.val; omega),
      wblk_apply m c t q j (lo j) (by show j.val = 256 * (t.val % 2) + j.val; omega)]

/-- at an odd point the second half's. -/
theorem chunk_sum_odd (c : Dev nD) (t : Fin cfg0.N) (ht : t.val % 2 = 1) (p : Fin 5000) (q : Fin 512) (r : Fin 10000)
    (hr : r.val = 5000 * (t.val / 2) + p.val) :
    (∑ j : Fin 256, xblk m c t (ix2 p j) * wblk m c t (ix2 q j)) = dotHi m c r q :=
  Finset.sum_congr rfl fun j _ => by
    rw [xblk_apply m c t p j r (hi j) hr (by show 256 + j.val = 256 * (t.val % 2) + j.val; omega),
      wblk_apply m c t q j (hi j) (by show 256 + j.val = 256 * (t.val % 2) + j.val; omega)]

/-- The block after the first chunk of a row tile. -/
theorem block_even (c : Dev nD) (t : Fin cfg0.N) (ht : t.val % 2 = 0) (p : Fin 5000) (q : Fin 512) (r : Fin 10000)
    (hr : r.val = 5000 * (t.val / 2) + p.val) :
    blockAfter m c t.val t.isLt (ix2 p q) =
      if q.val < 256 then (tenth * dotLo m c r q + tenth * barr m c (ix1 q)) + xarr m c (ix2 r q)
      else tenth * dotLo m c r q + tenth * barr m c (ix1 q) := by
  rw [blockAfter_even m c t ht]
  by_cases hq : q.val < 256
  · rw [if_pos hq]
    refine (afterFirst_lo (F := Ideal) c (grid0.coords t) (xBuf t) (xBuf_whole t) (wBuf t) (wBuf_whole t) (bBuf t) (bBuf_whole t) (oBuf t) (oBuf_whole t)
      ((isFirstChunk_iff t).mpr ht) (not_later_of_even t ht) (iblk m c 0 t) (iblk m c 1 t) (iblk m c 2 t) p q hq).trans ?_
    show k0_pay2 (F := Ideal) (xblk m c t) (wblk m c t) (bblk m c t) (ix2 p q) + xblk m c t (ix2 p ⟨q.val, hq⟩) = _
    rw [first_apply (xblk m c t) (wblk m c t) (bblk m c t) p q, chunk_sum_even m c t ht p q r hr, bblk_apply m c t q,
      xblk_apply m c t p ⟨q.val, hq⟩ r q hr (by show q.val = 256 * (t.val % 2) + q.val; omega)]
  · rw [if_neg hq]
    refine (afterFirst_hi (F := Ideal) c (grid0.coords t) (xBuf t) (xBuf_whole t) (wBuf t) (wBuf_whole t) (bBuf t) (bBuf_whole t) (oBuf t) (oBuf_whole t)
      ((isFirstChunk_iff t).mpr ht) (not_later_of_even t ht) (iblk m c 0 t) (iblk m c 1 t) (iblk m c 2 t) p q (by omega)).trans ?_
    rw [first_apply (xblk m c t) (wblk m c t) (bblk m c t) p q, chunk_sum_even m c t ht p q r hr, bblk_apply m c t q]

/-- The block after the second chunk: what is written back. -/
theorem block_odd (c : Dev nD) (t : Fin cfg0.N) (ht : t.val % 2 = 1) (p : Fin 5000) (q : Fin 512) (r : Fin 10000)
    (hr : r.val = 5000 * (t.val / 2) + p.val) :
    blockAfter m c t.val t.isLt (ix2 p q) =
      if q.val < 256 then ((tenth * dotLo m c r q + tenth * barr m c (ix1 q)) + xarr m c (ix2 r q)) + tenth * dotHi m c r q
      else ((tenth * dotLo m c r q + tenth * barr m c (ix1 q)) + tenth * dotHi m c r q) + xarr m c (ix2 r q) := by
  have h0 : ¬t.val % 2 = 0 := by omega
  have hlt : t.val - 1 < cfg0.N := Nat.lt_of_le_of_lt (Nat.sub_le _ _) t.isLt
  have hprev : blockAfter m c (t.val - 1) hlt (ix2 p q) =
      if q.val < 256 then (tenth * dotLo m c r q + tenth * barr m c (ix1 q)) + xarr m c (ix2 r q)
      else tenth * dotLo m c r q + tenth * barr m c (ix1 q) :=
    block_even m c ⟨t.val - 1, hlt⟩ (by show (t.val - 1) % 2 = 0; omega) p q r (by show r.val = 5000 * ((t.val - 1) / 2) + p.val; omega)
  rw [blockAfter_odd m c t h0]
  by_cases hq : q.val < 256
  · rw [if_pos hq] at hprev ⊢
    refine (afterLater_lo (F := Ideal) c (grid0.coords t) (xBuf t) (xBuf_whole t) (wBuf t) (wBuf_whole t) (bBuf t) (bBuf_whole t) (oBuf t) (oBuf_whole t)
      (not_first_of_odd t h0) (later_of_odd t h0) (iblk m c 0 t) (iblk m c 1 t) (iblk m c 2 t) (blockAfter m c (t.val - 1) hlt) p q hq).trans ?_
    rw [later_apply (xblk m c t) (wblk m c t) (blockAfter m c (t.val - 1) hlt) p q, hprev, chunk_sum_odd m c t ht p q r hr]
  · rw [if_neg hq] at hprev ⊢
    refine (afterLater_hi (F := Ideal) c (grid0.coords t) (xBuf t) (xBuf_whole t) (wBuf t) (wBuf_whole t) (bBuf t) (bBuf_whole t) (oBuf t) (oBuf_whole t)
      (not_first_of_odd t h0) (later_of_odd t h0) (iblk m c 0 t) (iblk m c 1 t) (iblk m c 2 t) (blockAfter m c (t.val - 1) hlt) p q (by omega)).trans ?_
    show k0_pay3 (F := Ideal) (xblk m c t) (wblk m c t) (blockAfter m c (t.val - 1) hlt) (ix2 p q) + xblk m c t (ix2 p ⟨q.val - 256, by have := q.isLt; omega⟩) = _
    rw [later_apply (xblk m c t) (wblk m c t) (blockAfter m c (t.val - 1) hlt) p q, hprev, chunk_sum_odd m c t ht p q r hr,
      xblk_apply m c t p ⟨q.val - 256, by have := q.isLt; omega⟩ r q hr (by show q.val = 256 * (t.val % 2) + (q.val - 256); omega)]

/-! ## The array after the run -/

theorem xarr_eq (c : Dev nD) : xarr m c = m ((c : Thread nD τ).loc main_arg0) := V_main_arg0 m c
theorem warr_eq (c : Dev nD) : warr m c = m ((c : Thread nD τ).loc main_arg1) := V_main_arg1 m c
theorem barr_eq (c : Dev nD) : barr m c = m ((c : Thread nD τ).loc main_arg2) := V_main_arg2 m c

/-- What a write-back writes is its block of the specified array, when every input entry is a real number: the
    block after the second chunk, by the certificate's one law (the input entry joins the sum before the second
    half's product in the first 256 columns and after it in the last 256). -/
theorem flushed_eq (c : Dev nD) (hx : ∀ i, ∃ r : ℝ, xarr m c i = r) (hw : ∀ i, ∃ r : ℝ, warr m c i = r) (hb : ∀ i, ∃ r : ℝ, barr m c i = r)
    (t : Fin cfg0.N) (hf : (cfg0.win 3).flush t = true) :
    (pipeData m 0 c).flushed 3 t = ((cfg0.win 3).blk t).view.read (Elt Ideal) (result (xarr m c) (warr m c) (barr m c)) := by
  have ht : t.val % 2 = 1 := (flush0_3 t).mp hf
  have hN : t.val < 4 := lt_of_lt_of_eq t.isLt (show cfg0.N = 4 from N_0)
  obtain ⟨-, -, -, -, -, -, e6, e7⟩ := index_facts t
  show (cfg0.win 3).cut (grid0.coords t) ((pipeData m 0 c).after 3 t) = _
  rw [after_o]
  funext y
  obtain ⟨p, q, rfl⟩ : ∃ (p : Fin 5000) (q : Fin 512), y = ix2 p q := ⟨y 0, y 1, eq_ix2 y⟩
  have hp : p.val < 5000 := p.isLt
  let r : Fin 10000 := ⟨5000 * (t.val / 2) + p.val, by omega⟩
  have hemb : ((cfg0.win 3).blk t).view.emb (ix2 p q) = ix2 r q := funext fun a => Fin.ext (by
    match a with
    | ⟨0, _⟩ => show win0_3.index t (0 : Fin 2) * 5000 + 1 * p.val = 5000 * (t.val / 2) + p.val; omega
    | ⟨1, _⟩ => show win0_3.index t (1 : Fin 2) * 512 + 1 * q.val = q.val; omega)
  show blockAfter m c t.val t.isLt (ix2 p q) = result (xarr m c) (warr m c) (barr m c) (((cfg0.win 3).blk t).view.emb (ix2 p q))
  rw [hemb, block_odd m c t ht p q r rfl]
  show _ = entry (xarr m c) (warr m c) (barr m c) r q
  unfold entry
  by_cases hq : q.val < 256
  · rw [if_pos hq]
    exact law_lo tenth (xarr m c (ix2 r q)) (barr m c (ix1 q)) (fun k => xarr m c (ix2 r k)) (fun k => warr m c (ix2 q k))
      tenth_real (hx _) (hb _) (fun k => hx _) (fun k => hw _)
  · rw [if_neg hq]
    exact law_hi tenth (xarr m c (ix2 r q)) (barr m c (ix1 q)) (fun k => xarr m c (ix2 r k)) (fun k => warr m c (ix2 q k))
      tenth_real (hx _) (hb _) (fun k => hx _) (fun k => hw _)

/-- An index of the output array is in point t's block iff its row is in the block's row range (all columns are). -/
theorem mem_block (t : Fin cfg0.N) (i : S10000x512.Idx) :
    i ∈ ((cfg0.win 3).blk t).view.set ↔ ∀ a : Fin 2, win0_3.index t a * S5000x512.size a ≤ (i a).val ∧ (i a).val < win0_3.index t a * S5000x512.size a + S5000x512.size a := by
  show i ∈ ((View.whole main_v1).slice (win0_3.rect t)).set ↔ _
  rw [View.set_slice_whole, Rect.mem_set_unit]
  exact Iff.rfl

/-- The two write-backs (after points 1 and 3) cover the array: row r lies in row tile r / 5000. -/
theorem final (c : Dev nD) (hx : ∀ i, ∃ r : ℝ, xarr m c i = r) (hw : ∀ i, ∃ r : ℝ, warr m c i = r) (hb : ∀ i, ∃ r : ℝ, barr m c i = r) :
    (pipeData m 0 c).arrAt 3 cfg0.N = result (xarr m c) (warr m c) (barr m c) :=
  (pipeData m 0 c).arrAt_eq_of_cover 3 (result (xarr m c) (warr m c) (barr m c)) (flushed_eq m c hx hw hb) fun i => by
    have hi0 : (i 0).val < 10000 := (i 0).isLt
    have hi1 : (i 1).val < 512 := (i 1).isLt
    have hN : cfg0.N = 4 := N_0
    let t : Fin cfg0.N := ⟨2 * ((i 0).val / 5000) + 1, by rw [hN]; omega⟩
    obtain ⟨-, -, -, -, -, -, e6, e7⟩ := index_facts t
    have htv : t.val = 2 * ((i 0).val / 5000) + 1 := rfl
    refine ⟨t, (flush0_3 t).mpr (by omega), ?_⟩
    rw [mem_block]
    intro a
    match a with
    | ⟨0, _⟩ => show win0_3.index t (0 : Fin 2) * 5000 ≤ (i 0).val ∧ (i 0).val < win0_3.index t (0 : Fin 2) * 5000 + 5000; omega
    | ⟨1, _⟩ => show win0_3.index t (1 : Fin 2) * 512 ≤ (i 1).val ∧ (i 1).val < win0_3.index t (1 : Fin 2) * 512 + 512; omega

/-- The run, read: under the inputs' finiteness the kernel's result array ends at the specified array of its
    arguments, and the arguments end unchanged. -/
theorem run (ρ : Dev nD → PrngReg)
    (hx : ∀ (c : Dev nD) (i : S10000x512.Idx), ∃ r : ℝ, (m ((c : Thread nD τ).loc main_arg0) : FVec Ideal S10000x512 .f32) i = (r : EReal))
    (hw : ∀ (c : Dev nD) (i : S512x512.Idx), ∃ r : ℝ, (m ((c : Thread nD τ).loc main_arg1) : FVec Ideal S512x512 .f32) i = (r : EReal))
    (hb : ∀ (c : Dev nD) (i : S512.Idx), ∃ r : ℝ, (m ((c : Thread nD τ).loc main_arg2) : FVec Ideal S512 .f32) i = (r : EReal)) :
    θ_run defs (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans ((final m c (by rw [xarr_eq]; exact hx c) (by rw [warr_eq]; exact hw c) (by rw [barr_eq]; exact hb c)).trans
        (by rw [xarr_eq, warr_eq, barr_eq])),
      ((h c).1 0).trans (((pipeData m 0 c).arrAt_in 0 rfl _).trans ((pipeData_A m c 0).trans (V_main_arg0 m c))),
      ((h c).1 1).trans (((pipeData m 0 c).arrAt_in 1 rfl _).trans ((pipeData_A m c 1).trans (V_main_arg1 m c))),
      ((h c).2 main_arg2 (Pipeline.mem_restRefs_of main_arg2 (by decide) (by decide))).trans (V_main_arg2 m c)⟩)
    (run_main m ρ)

end Cert.KernelIdeal.Chunked

end
-- ==== Proof.RefSide.lean ====
/-
  The reference computes the specified array: its nine host operations, read at an entry, are literally
  x (r, q) + t * ((sum over k of x (r, k) * Wᵀ (k, q)) + b (q)), and the transpose read at (k, q) is W (q, k).
-/
import proofs.«167304_g12850542150406_cont_week2b_740_10_alg».proof.Proof.Gen.ReferenceIdeal.Run
import proofs.«167304_g12850542150406_cont_week2b_740_10_alg».proof.Proof.Gen.ReferenceIdeal.Read
import proofs.«167304_g12850542150406_cont_week2b_740_10_alg».proof.Proof.Spec

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.ResidualLinear

/-- The reference's last stage is the specified array. -/
theorem reference_eq (x : FVec Ideal S10000x512 .f32) (w : FVec Ideal S512x512 .f32) (b : FVec Ideal S512 .f32) :
    val_main_v7 (F := Ideal) x w b = result x w b := by
  funext i
  obtain ⟨r, q, rfl⟩ : ∃ (r : Fin 10000) (q : Fin 512), i = ix2 r q := ⟨i 0, i 1, eq_ix2 i⟩
  rw [val_main_v7_apply, val_main_v6_apply, val_main_v5_apply, val_main_cst_apply, val_main_v4_apply, val_main_v1_apply,
    val_main_v3_apply, val_main_v2_apply]
  simp only [val_main_v0_apply]
  have e1 : ∀ k : Fin 512, lidx_main_v1 (ix2 r q) k = ix2 r k := fun k => funext fun a => Fin.ext (by
    match a with | ⟨0, _⟩ => rfl | ⟨1, _⟩ => rfl)
  have e2 : ∀ k : Fin 512, idx_main_v0 (ridx_main_v1 (ix2 r q) k) = ix2 q k := fun k => funext fun a => Fin.ext (by
    match a with | ⟨0, _⟩ => rfl | ⟨1, _⟩ => rfl)
  have e3 : idx_main_v2 (idx_main_v3 (ix2 r q)) = ix1 q := funext fun a => Fin.ext (by
    match a with | ⟨0, _⟩ => rfl)
  simp only [e1, e2, e3]
  rfl

end Cert.ReferenceIdeal.RefValue

end
-- ==== Proof.Finite.lean ====
/-
  Reading the precondition: every entry of the three inputs is a real number.

  The precondition is the conjunction, over the three arrays, of  all (|a| < +inf).  An extended real whose absolute
  value is below +inf is neither infinity, so it is (the coercion of) a real.
-/
import proofs.«167304_g12850542150406_cont_week2b_740_10_alg».proof.Pre_finite_inputs
import Idealize.ShloMosaic.PureOps.Ideal
import Idealize.ShloMosaic.Lib.ReduceAll
import Idealize.ShloMosaic.Lib.ValueIdx

noncomputable section

namespace Cert.ResidualLinear

open Idealize.ShloMosaic Cert.Pre_finite_inputs

instance : Subsingleton S_.Idx := ⟨fun a b => funext fun d => d.elim0⟩

/-- An extended real whose absolute value compares below the word of +inf is a real number. -/
theorem real_of_abs_lt_inf (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of x, W and b is a real number. -/
theorem entries_real [Cert.Pre_finite_inputs.Facts] (x : FVec Ideal S10000x512 .f32) (w : FVec Ideal S512x512 .f32) (b : FVec Ideal S512 .f32)
    (h : fn (F := Ideal) x w b = fun _ => 1#1) :
    (∀ i, ∃ r : ℝ, x i = r) ∧ (∀ i, ∃ r : ℝ, w i = r) ∧ (∀ i, ∃ r : ℝ, b i = r) := by
  have h0 := congrFun h ValueIdx.ix0
  dsimp only [fn] at h0
  obtain ⟨h01, h2⟩ := IntOp.andi_eq_one.1 h0
  obtain ⟨h00, h1⟩ := IntOp.andi_eq_one.1 h01
  exact ⟨fun i => real_of_abs_lt_inf _ (Host.reduce_andi_all _ _ _ _ _ h00 i),
    fun i => real_of_abs_lt_inf _ (Host.reduce_andi_all _ _ _ _ _ h1 i),
    fun i => real_of_abs_lt_inf _ (Host.reduce_andi_all _ _ _ _ _ h2 i)⟩

end Cert.ResidualLinear

end
-- ==== Proof.lean ====
/-
  x1 = x + 0.1 * (x · Wᵀ + b)  as one fused kernel against the plain expression: the certificate.

  The kernel walks a 2 x 2 grid (row tile, feature chunk).  At each point it multiplies a 5000 x 256 chunk of x by the
  matching chunk of W, scales the partial product by 0.1, and accumulates it into the row tile's 5000 x 512 output
  block, which stays in its staging buffer over both chunks: the first chunk sets the block to
  0.1 * partial + 0.1 * b, the second adds its own 0.1 * partial, and each chunk adds its x columns into the block's
  matching columns.  The reference is  x + 0.1 * (x · Wᵀ + b)  in nine host operations.

    frames      the two kernel programs run, fault nowhere and leave x, W, b unchanged: the body is run symbolically
                once per branch, for any float instance, with the output block's contents named point by point by
                recursion over the grid; the reference's frame is its run with the result dropped.
    preserves   the ideal pass rewrote nothing.
    algebraic   entry (r, q) of the kernel's result is
                    ((t * S1 + t * b q) + x r q) + t * S2   for q < 256,     ((t * S1 + t * b q) + t * S2) + x r q   otherwise,
                S1 and S2 the products over the first and last 256 features and t the word of 0.1; the reference's is
                x r q + t * ((S1 + S2 as one sum) + b q).  Over the extended reals these agree for real entries
                (t distributes over a sum of finite terms only), which is where the precondition is used.
-/
import proofs.«167304_g12850542150406_cont_week2b_740_10_alg».proof.Defs
import proofs.«167304_g12850542150406_cont_week2b_740_10_alg».proof.Proof.Gen.Kernel
import proofs.«167304_g12850542150406_cont_week2b_740_10_alg».proof.Proof.Gen.KernelIdeal
import proofs.«167304_g12850542150406_cont_week2b_740_10_alg».proof.Proof.Gen.ReferenceIdeal
import proofs.«167304_g12850542150406_cont_week2b_740_10_alg».proof.Proof.Gen.Pre_finite_inputs
import proofs.«167304_g12850542150406_cont_week2b_740_10_alg».proof.Proof.BitsFrame
import proofs.«167304_g12850542150406_cont_week2b_740_10_alg».proof.Proof.IdealArray
import proofs.«167304_g12850542150406_cont_week2b_740_10_alg».proof.Proof.RefSide
import proofs.«167304_g12850542150406_cont_week2b_740_10_alg».proof.Proof.Finite
import Idealize.ShloMosaic.Adequacy
import Idealize.ShloMosaic.Init

noncomputable section

namespace Cert.Proof

open Idealize.ShloMosaic Idealize.ShloMosaic.TcCoe Idealize.SL.Sem Cert.ResidualLinear

/-- The two idealized programs, from memories agreeing on x, W and b, end with the same array: the specified one. -/
theorem algebraic [Cert.KernelIdeal.Facts] [Cert.ReferenceIdeal.Facts] [Cert.Pre_finite_inputs.Facts] :
    Cert.algebraic_KernelIdeal_ReferenceIdeal := by
  intro m ρ m' ρ' hpre hagree
  have hreal := fun c => entries_real _ _ _ (hpre c)
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Chunked.run m ρ (fun c => (hreal c).1) (fun c => (hreal c).2.1) (fun c => (hreal c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Chunked.frame m ρ,
  fun m ρ _ => Cert.KernelIdeal.Chunked.frame m ρ,
  fun m ρ _ => (θ_run Cert.ReferenceIdeal.defs _ _).mono (fun _ h c => (h c).2) (Cert.ReferenceIdeal.Value.run (F := Ideal) m ρ),
  trivial,
  algebraic⟩

end Cert.Proof

end
